-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x256 : Shape := ⟨2, ![128, 256]⟩
abbrev S256 : Shape := ⟨1, ![256]⟩
abbrev S256x100 : Shape := ⟨2, ![256, 100]⟩
abbrev S100 : Shape := ⟨1, ![100]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x100 : S_.BroadcastsInDim S256x100 (![] : Fin 0 → Fin S256x100.rank)
  reducesTo_S256x100_S_d0_1 : S256x100.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg5 : FVec F S256x100 .f32) (main_arg6 : FVec F S256x100 .f32) (main_arg7 : FVec F S100 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x100 .f32 := Host.absf main_arg5
  let main_cst_6 : FVec F S_ .f32 := constant S_ .f32 0x7F800000#32
  let main_v20 : FVec F S256x100 .f32 := broadcastInDim S256x100 ![] bcast_S_S256x100 main_cst_6
  let main_v21 : IVec S256x100 1 := cmpf .olt main_v19 main_v20
  let main_c_7 : IVec S_ 1 := constantI S_ 1 1#1
  let main_v22 : IVec S_ 1 := (fun x v => Host.reduce IntOp.andi x v reducesTo_S256x100_S_d0_1 h_S_) main_v21 main_c_7
  let main_v23 : IVec S_ 1 := andi main_v18 main_v22
  let main_v24 : FVec F S256x100 .f32 := Host.absf main_arg6
  let main_cst_8 : FVec F S_ .f32 := constant S_ .f32 0x7F800000#32
  let main_v25 : FVec F S256x100 .f32 := broadcastInDim S256x100 ![] bcast_S_S256x100 main_cst_8
  let main_v26 : IVec S256x100 1 := cmpf .olt main_v24 main_v25
  let main_c_9 : IVec S_ 1 := constantI S_ 1 1#1
  let main_v27 : IVec S_ 1 := (fun x v => Host.reduce IntOp.andi x v reducesTo_S256x100_S_d0_1 h_S_) main_v26 main_c_9
  let main_v28 : IVec S_ 1 := andi main_v23 main_v27
  let main_v29 : FVec F S100 .f32 := Host.absf main_arg7
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x256 .f32) (main_arg3 : FVec F S128x256 .f32) (main_arg4 : FVec F S256 .f32) (main_arg5 : FVec F S256x100 .f32) (main_arg6 : FVec F S256x100 .f32) (main_arg7 : FVec F S100 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x256 : Shape := ⟨2, ![128, 256]⟩
abbrev S256 : Shape := ⟨1, ![256]⟩
abbrev S256x100 : Shape := ⟨2, ![256, 100]⟩
abbrev S100 : Shape := ⟨1, ![100]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S100000x1 : Shape := ⟨2, ![100000, 1]⟩
abbrev S1x256 : Shape := ⟨2, ![1, 256]⟩
abbrev S100000x256 : Shape := ⟨2, ![100000, 256]⟩
abbrev S4000x128 : Shape := ⟨2, ![4000, 128]⟩
abbrev S4000x256 : Shape := ⟨2, ![4000, 256]⟩
abbrev S640000x256 : Shape := ⟨2, ![640000, 256]⟩
abbrev S1x100 : Shape := ⟨2, ![1, 100]⟩
abbrev S100000x100 : Shape := ⟨2, ![100000, 100]⟩
abbrev S4000x100 : Shape := ⟨2, ![4000, 100]⟩

abbrev nBuf : Space → Nat
  | .hbm => 60
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x100, .f32⟩
  | .hbm, ⟨6, _⟩ => ⟨S256x100, .f32⟩
  | .hbm, ⟨7, _⟩ => ⟨S100, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .f32⟩
  | .hbm, ⟨34, _⟩ => ⟨S100000x128, .f32⟩
  | .hbm, ⟨35, _⟩ => ⟨S640000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x256, .f32⟩
  | .hbm, ⟨41, _⟩ => ⟨S100000x256, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x256, .f32⟩
  | .hbm, ⟨51, _⟩ => ⟨S_, .f32⟩
  | .hbm, ⟨52, _⟩ => ⟨S100000x256, .f32⟩
  | .hbm, ⟨53, _⟩ => ⟨S640000x1, .i32⟩
  | .hbm, ⟨54, _⟩ => ⟨S100000x256, .f32⟩
  | .hbm, ⟨55, _⟩ => ⟨S100000x1, .f32⟩
  | .hbm, ⟨56, _⟩ => ⟨S100000x256, .f32⟩
  | .hbm, ⟨57, _⟩ => ⟨S100000x256, .f32⟩
  | .hbm, ⟨58, _⟩ => ⟨S1x100, .f32⟩
  | .hbm, ⟨59, _⟩ => ⟨S100000x100, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S4000x256, .f32⟩
  | .local _ .vmem, ⟨8, _⟩ => ⟨S4000x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S4000x256, .f32⟩
  | .local _ .vmem, ⟨13, _⟩ => ⟨S256x100, .f32⟩
  | .local _ .vmem, ⟨14, _⟩ => ⟨S256x100, .f32⟩
  | .local _ .vmem, ⟨15, _⟩ => ⟨S1x100, .f32⟩
  | .local _ .vmem, ⟨16, _⟩ => ⟨S4000x100, .f32⟩
  | .local _ .vmem, ⟨17, _⟩ => ⟨S4000x100, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x100 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  shapeCasts_S100_S1x100 : S100.ShapeCasts S1x100
  shapeCasts_S4000x256_S4000x256 : S4000x256.ShapeCasts S4000x256
  inb_S256x100_S256x100_0_0 : ∀ a, (![0, 0] : Fin 2 → Nat) a + S256x100.size a ≤ S256x100.size a
  h_S256x100 : 0 < S256x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S4000x100 : S1x100.Broadcasts S4000x100
  inb_S4000x100_S4000x100_0_0 : ∀ a, (![0, 0] : Fin 2 → Nat) a + S4000x100.size a ≤ S4000x100.size a
  h_S4000x100 : 0 < S4000x100.numel
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S4000x128_S128x256_S4000x256_1_0_0_1_n_n_wf : DotDims.WF S4000x128 S128x256 S4000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S4000x256_S256x100_S4000x100_1_0_0_1_n_n_wf : DotDims.WF S4000x256 S256x100 S4000x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S100000x256.size a
  hwx0_5 : ∀ i : grid0.Coords, EltTy.bits .f32 = 32 ∨ (Rect.block (s := S100000x256) S4000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S100000x256.size a
  hwx1_1 : ∀ i : grid1.Coords, EltTy.bits .f32 = 32 ∨ (Rect.block (s := S100000x256) S4000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x100.size a ≤ S256x100.size a
  hwx1_2 : ∀ i : grid1.Coords, EltTy.bits .f32 = 32 ∨ (Rect.block (s := S256x100) S256x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x100.size a ≤ S256x100.size a
  hwx1_3 : ∀ i : grid1.Coords, EltTy.bits .f32 = 32 ∨ (Rect.block (s := S256x100) S256x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x100.size a ≤ S1x100.size a
  hwx1_4 : ∀ i : grid1.Coords, EltTy.bits .f32 = 32 ∨ (Rect.block (s := S1x100) S1x100.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x100.size a ≤ S100000x100.size a
  hwx1_5 : ∀ i : grid1.Coords, EltTy.bits .f32 = 32 ∨ (Rect.block (s := S100000x100) S4000x100.size (cc1_transform_5 i) (hinb1_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S4000x256_S256x100_S4000x100_1_0_0_1_n_n : DotDims S4000x256 S256x100 S4000x100 where
  lhsContracting := [1]
  rhsContracting := [0]
  lhsNonContracting := [0]
  rhsNonContracting := [1]
  lhsBatch := []
  rhsBatch := []
  wf := dot_S4000x256_S256x100_S4000x100_1_0_0_1_n_n_wf

abbrev win0_0 : Pipeline.Window sig grid0 :=
  Pipeline.Window.ofSpec (Memref.whole main_v24) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S4000x100.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x256 : Shape := ⟨2, ![128, 256]⟩
abbrev S256 : Shape := ⟨1, ![256]⟩
abbrev S256x100 : Shape := ⟨2, ![256, 100]⟩
abbrev S100 : Shape := ⟨1, ![100]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S640000x256 : Shape := ⟨2, ![640000, 256]⟩
abbrev S100000x100 : Shape := ⟨2, ![100000, 100]⟩
abbrev S1x100 : Shape := ⟨2, ![1, 100]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x100, .f32⟩
  | .hbm, ⟨6, _⟩ => ⟨S256x100, .f32⟩
  | .hbm, ⟨7, _⟩ => ⟨S100, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x256, .f32⟩
  | .hbm, ⟨38, _⟩ => ⟨S100000x256, .f32⟩
  | .hbm, ⟨39, _⟩ => ⟨S100000x256, .f32⟩
  | .hbm, ⟨40, _⟩ => ⟨S1x256, .f32⟩
  | .hbm, ⟨41, _⟩ => ⟨S100000x256, .f32⟩
  | .hbm, ⟨42, _⟩ => ⟨S100000x256, .f32⟩
  | .hbm, ⟨43, _⟩ => ⟨S_, .f32⟩
  | .hbm, ⟨44, _⟩ => ⟨S100000x256, .f32⟩
  | .hbm, ⟨45, _⟩ => ⟨S100000x256, .f32⟩
  | .hbm, ⟨46, _⟩ => ⟨S1x640000, .i32⟩
  | .hbm, ⟨47, _⟩ => ⟨S640000, .i32⟩
  | .hbm, ⟨48, _⟩ => ⟨S1x640000, .i32⟩
  | .hbm, ⟨49, _⟩ => ⟨S640000, .i32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x256, .f32⟩
  | .hbm, ⟨59, _⟩ => ⟨S_, .f32⟩
  | .hbm, ⟨60, _⟩ => ⟨S100000x256, .f32⟩
  | .hbm, ⟨61, _⟩ => ⟨S640000x1, .i32⟩
  | .hbm, ⟨62, _⟩ => ⟨S100000x256, .f32⟩
  | .hbm, ⟨63, _⟩ => ⟨S_, .f32⟩
  | .hbm, ⟨64, _⟩ => ⟨S640000, .f32⟩
  | .hbm, ⟨65, _⟩ => ⟨S_, .f32⟩
  | .hbm, ⟨66, _⟩ => ⟨S100000, .f32⟩
  | .hbm, ⟨67, _⟩ => ⟨S640000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x256, .f32⟩
  | .hbm, ⟨74, _⟩ => ⟨S100000x256, .f32⟩
  | .hbm, ⟨75, _⟩ => ⟨S100000x100, .f32⟩
  | .hbm, ⟨76, _⟩ => ⟨S100000x100, .f32⟩
  | .hbm, ⟨77, _⟩ => ⟨S100000x100, .f32⟩
  | .hbm, ⟨78, _⟩ => ⟨S1x100, .f32⟩
  | .hbm, ⟨79, _⟩ => ⟨S100000x100, .f32⟩
  | .hbm, ⟨80, _⟩ => ⟨S100000x100, .f32⟩
  | .hbm, ⟨81, _⟩ => ⟨S100000x100, .f32⟩
  | .hbm, ⟨82, _⟩ => ⟨S100000x100, .f32⟩
  | .hbm, ⟨83, _⟩ => ⟨S_, .f32⟩
  | .hbm, ⟨84, _⟩ => ⟨S100000x100, .f32⟩
  | .hbm, ⟨85, _⟩ => ⟨S100000x100, .f32⟩
  | .hbm, ⟨86, _⟩ => ⟨S_, .f32⟩
  | .hbm, ⟨87, _⟩ => ⟨S100000x100, .f32⟩
  | .hbm, ⟨88, _⟩ => ⟨S100000x100, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  bcast_S_S100000x100 : S_.BroadcastsInDim S100000x100 (![] : Fin 0 → Fin S100000x100.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x256_S100000x256_1_0_0_1_n_n_wf : DotDims.WF S100000x128 S128x256 S100000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S100000x256_S256x100_S100000x100_1_0_0_1_n_n_wf : DotDims.WF S100000x256 S256x100 S100000x100 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S100000x256_S256x100_S100000x100_1_0_0_1_n_n : DotDims S100000x256 S256x100 S100000x100 where
  lhsContracting := [1]
  rhsContracting := [0]
  lhsNonContracting := [0]
  rhsNonContracting := [1]
  lhsBatch := []
  rhsBatch := []
  wf := dot_S100000x256_S256x100_S100000x100_1_0_0_1_n_n_wf

class Facts : Prop extends Facts₀ where

variable [Facts]
-- ==== Proof.HostTerms.lean ====
/-
  The host side of the kernel program, as named functions of the edge list and the features.

  From the edge list `e` (row 0 the sources, row 1 the destinations):
    * `srcIds e`, `dstIds e`: the two rows as flat vectors;
    * `wrapCol s`: the source ids with negative ones shifted up by the node count, as a column — the gather's indices;
    * `degMax d = max(deg, 1)`, `deg` the scatter-add of ones over the destinations `d`; `invDeg d = 1 / degMax d`;
    * `aggIn x s d` / `aggHid h s d`: the scatter-add over `d` of the rows of `x` (of `h`) gathered at `s`;
    * `meanIn x s d r` / `meanHid h s d r`: that sum times a per-node factor `r` laid along the columns.
  The gather and the scatter-add stay closed: the reference applies the same two functions to the same arguments.
-/
import proofs.«152443_j55009941127683_1_alg».proof.Proof.Gen.KernelIdeal
import Idealize.ShloMosaic.PureOps.Ideal

noncomputable section

open Idealize.ShloMosaic Idealize.SL.Sem

namespace Cert.Sage.KHost

open Cert.KernelIdeal Cert.KernelIdeal.Facts₀ Cert.KernelIdeal.Facts

variable {F : FTy → Type} [FloatOps F]

/-- The edge list's row 0, flat: the source node of each edge. -/
def srcIds (e : (⟨S2x640000, .i32⟩ : BufTy).Contents (Elt F)) : (⟨S640000, .i32⟩ : BufTy).Contents (Elt F) :=
  shapeCast _ (extractStridedSlice S1x640000 ![0, 0] e slices_S2x640000_S1x640000_0_0) shapeCasts_S1x640000_S640000
/-- The edge list's row 1, flat: the destination node of each edge. -/
def dstIds (e : (⟨S2x640000, .i32⟩ : BufTy).Contents (Elt F)) : (⟨S640000, .i32⟩ : BufTy).Contents (Elt F) :=
  shapeCast _ (extractStridedSlice S1x640000 ![1, 0] e slices_S2x640000_S1x640000_1_0) shapeCasts_S1x640000_S640000
/-- Ids as a column of index vectors. -/
def idCol (d : (⟨S640000, .i32⟩ : BufTy).Contents (Elt F)) : (⟨S640000x1, .i32⟩ : BufTy).Contents (Elt F) :=
  broadcastInDim S640000x1 ![0] bcast_S640000_S640000x1_0 d
/-- Source ids with the negative ones shifted up by the node count, as a column: the gather's start indices. -/
def wrapCol (s : (⟨S640000, .i32⟩ : BufTy).Contents (Elt F)) : (⟨S640000x1, .i32⟩ : BufTy).Contents (Elt F) :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 100000#32))) s)
/-- `max(deg, 1)`: the in-degree (the scatter-add of ones over the destinations), at least one. -/
def degMax (d : (⟨S640000, .i32⟩ : BufTy).Contents (Elt F)) : (⟨S100000, .f32⟩ : BufTy).Contents (Elt F) :=
  maximumf (Host.scatterAdd scatter_S100000_S640000x1_S640000_n_0_0_1
      (broadcastInDim S100000 ![] bcast_S_S100000 (constant S_ .f32 0x00000000#32)) (idCol d)
      (broadcastInDim S640000 ![] bcast_S_S640000 (constant S_ .f32 0x3F800000#32)))
    (broadcastInDim S100000 ![] bcast_S_S100000 (constant S_ .f32 0x3F800000#32))
/-- Its reciprocal, `1 / max(deg, 1)`. -/
def invDeg (d : (⟨S640000, .i32⟩ : BufTy).Contents (Elt F)) : (⟨S100000, .f32⟩ : BufTy).Contents (Elt F) :=
  Host.divf (broadcastInDim S100000 ![] bcast_S_S100000 (constant S_ .f32 0x3F800000#32)) (degMax d)
/-- A per-node vector laid along the 128 columns. -/
def rowsIn (v : (⟨S100000, .f32⟩ : BufTy).Contents (Elt F)) : (⟨S100000x128, .f32⟩ : BufTy).Contents (Elt F) :=
  broadcastInDim S100000x128 ![0, 1] bcast_S100000x1_S100000x128_0_1 (broadcastInDim S100000x1 ![0] bcast_S100000_S100000x1_0 v)
/-- A per-node vector laid along the 256 columns. -/
def rowsHid (v : (⟨S100000, .f32⟩ : BufTy).Contents (Elt F)) : (⟨S100000x256, .f32⟩ : BufTy).Contents (Elt F) :=
  broadcastInDim S100000x256 ![0, 1] bcast_S100000x1_S100000x256_0_1 (broadcastInDim S100000x1 ![0] bcast_S100000_S100000x1_0 v)
/-- The neighbour SUM of the input features: rows gathered at the sources, scatter-added at the destinations. -/
def aggIn (x : (⟨S100000x128, .f32⟩ : BufTy).Contents (Elt F)) (s d : (⟨S640000, .i32⟩ : BufTy).Contents (Elt F)) :
    (⟨S100000x128, .f32⟩ : BufTy).Contents (Elt F) :=
  Host.scatterAdd scatter_S100000x128_S640000x1_S640000x128_1_0_0_1
    (broadcastInDim S100000x128 ![] bcast_S_S100000x128 (constant S_ .f32 0x00000000#32)) (idCol d)
    (Host.gather gather_S100000x128_S640000x1_S640000x128_1_0_n_n_0_1_1128 x (wrapCol s))
/-- The neighbour SUM of the hidden features. -/
def aggHid (h : (⟨S100000x256, .f32⟩ : BufTy).Contents (Elt F)) (s d : (⟨S640000, .i32⟩ : BufTy).Contents (Elt F)) :
    (⟨S100000x256, .f32⟩ : BufTy).Contents (Elt F) :=
  Host.scatterAdd scatter_S100000x256_S640000x1_S640000x256_1_0_0_1
    (broadcastInDim S100000x256 ![] bcast_S_S100000x256 (constant S_ .f32 0x00000000#32)) (idCol d)
    (Host.gather gather_S100000x256_S640000x1_S640000x256_1_0_n_n_0_1_1256 h (wrapCol s))
/-- The neighbour mean as this program forms it: the sum times a per-node factor `r`. -/
def meanIn (x : (⟨S100000x128, .f32⟩ : BufTy).Contents (Elt F)) (s d : (⟨S640000, .i32⟩ : BufTy).Contents (Elt F))
    (r : (⟨S100000, .f32⟩ : BufTy).Contents (Elt F)) : (⟨S100000x128, .f32⟩ : BufTy).Contents (Elt F) :=
  mulf (aggIn x s d) (rowsIn r)
def meanHid (h : (⟨S100000x256, .f32⟩ : BufTy).Contents (Elt F)) (s d : (⟨S640000, .i32⟩ : BufTy).Contents (Elt F))
    (r : (⟨S100000, .f32⟩ : BufTy).Contents (Elt F)) : (⟨S100000x256, .f32⟩ : BufTy).Contents (Elt F) :=
  mulf (aggHid h s d) (rowsHid r)

end Cert.Sage.KHost

end
-- ==== Proof.SageSpec.lean ====
/-
  One GraphSAGE layer as a function of whole arrays, index by index, over the extended reals.

  A layer takes the neighbour mean `mean` and the node features `feat` (both N × K), two weight matrices
  (K × M) and a bias (M), and produces at row `r`, column `q`

      lin r q = Σ_k mean[r,k] · Wl[k,q]  +  Σ_k feat[r,k] · Wr[k,q]  +  b[q],

  followed by an activation: `max · 0` for the hidden layer, the logistic function for the output layer.
  Nothing here depends on how the rows are tiled: a kernel that computes 4000 rows at a time and a reference
  that computes all rows at once both produce this function.

  The one arithmetic law the certificate needs is about the mean itself. One program multiplies the
  neighbour sum by the reciprocal `1 / max(deg, 1)`, the other divides it by `max(deg, 1)`. On the extended
  reals `x / y` is `x · y⁻¹` whenever `y ≠ 0`, so `a · (1 / d) = a · (1 · d⁻¹) = a · d⁻¹ = a / d` for every `d ≠ 0`,
  infinite `a` and infinite `d` included; and `max(g, 1) ≥ 1 > 0` whatever `g` is. No finiteness is used.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.Sage

/-- Row `r`, column `q` of a layer before its activation: the mean's row against the left weight's column, the
    node's own row against the right weight's column, and the bias entry. -/
def lin {N K M : Nat} (mean feat : (⟨2, ![N, K]⟩ : Shape).Idx → EReal) (Wl Wr : (⟨2, ![K, M]⟩ : Shape).Idx → EReal)
    (b : Fin M → EReal) (r : Fin N) (q : Fin M) : EReal :=
  (∑ k : Fin K, mean (ix2 r k) * Wl (ix2 k q)) + (∑ k : Fin K, feat (ix2 r k) * Wr (ix2 k q)) + b q

/-- The hidden layer: `max (lin r q) 0` at every entry. -/
def reluLayer {N K M : Nat} (mean feat : (⟨2, ![N, K]⟩ : Shape).Idx → EReal) (Wl Wr : (⟨2, ![K, M]⟩ : Shape).Idx → EReal)
    (b : Fin M → EReal) : (⟨2, ![N, M]⟩ : Shape).Idx → EReal :=
  fun i => max (lin mean feat Wl Wr b (i 0) (i 1)) 0

/-- The output layer: the logistic function of `lin r q` at every entry. -/
def sigmLayer {N K M : Nat} (mean feat : (⟨2, ![N, K]⟩ : Shape).Idx → EReal) (Wl Wr : (⟨2, ![K, M]⟩ : Shape).Idx → EReal)
    (b : Fin M → EReal) : (⟨2, ![N, M]⟩ : Shape).Idx → EReal :=
  fun i => Ideal.logistic (lin mean feat Wl Wr b (i 0) (i 1))

/-- A layer's value depends on its inputs only through their values: equal means, features and biases give equal
    pre-activations. -/
theorem lin_congr {N K M : Nat} {mean mean' feat feat' : (⟨2, ![N, K]⟩ : Shape).Idx → EReal}
    {Wl Wr : (⟨2, ![K, M]⟩ : Shape).Idx → EReal} {b b' : Fin M → EReal} (r : Fin N) (q : Fin M)
    (hm : ∀ k, mean (ix2 r k) = mean' (ix2 r k)) (hf : ∀ k, feat (ix2 r k) = feat' (ix2 r k)) (hb : b q = b' q) :
    lin mean feat Wl Wr b r q = lin mean' feat' Wl Wr b' r q := by
  unfold lin
  have e1 : ∑ k : Fin K, mean (ix2 r k) * Wl (ix2 k q) = ∑ k : Fin K, mean' (ix2 r k) * Wl (ix2 k q) :=
    Finset.sum_congr rfl fun k _ => by rw [hm k]
  have e2 : ∑ k : Fin K, feat (ix2 r k) * Wr (ix2 k q) = ∑ k : Fin K, feat' (ix2 r k) * Wr (ix2 k q) :=
    Finset.sum_congr rfl fun k _ => by rw [hf k]
  rw [e1, e2, hb]

/-- A layer's formula on a block of rows is the formula on the whole arrays at the block's place: if row `p` of the
    blocks is row `r` of the arrays, and the weights and the bias are read where the arrays have them, the two
    pre-activations agree. -/
theorem lin_block {N K M n : Nat} (mean feat : (⟨2, ![N, K]⟩ : Shape).Idx → EReal) (Wl Wr : (⟨2, ![K, M]⟩ : Shape).Idx → EReal)
    (b : Fin M → EReal) (bm bf : (⟨2, ![n, K]⟩ : Shape).Idx → EReal) (wl wr : (⟨2, ![K, M]⟩ : Shape).Idx → EReal)
    (bb : Fin M → EReal) (p : Fin n) (r : Fin N) (q : Fin M)
    (hm : ∀ k, bm (ix2 p k) = mean (ix2 r k)) (hf : ∀ k, bf (ix2 p k) = feat (ix2 r k))
    (hwl : ∀ k, wl (ix2 k q) = Wl (ix2 k q)) (hwr : ∀ k, wr (ix2 k q) = Wr (ix2 k q)) (hb : bb q = b q) :
    lin bm bf wl wr bb p q = lin mean feat Wl Wr b r q := by
  unfold lin
  have e1 : ∑ k : Fin K, bm (ix2 p k) * wl (ix2 k q) = ∑ k : Fin K, mean (ix2 r k) * Wl (ix2 k q) :=
    Finset.sum_congr rfl fun k _ => by rw [hm k, hwl k]
  have e2 : ∑ k : Fin K, bf (ix2 p k) * wr (ix2 k q) = ∑ k : Fin K, feat (ix2 r k) * Wr (ix2 k q) :=
    Finset.sum_congr rfl fun k _ => by rw [hf k, hwr k]
  rw [e1, e2, hb]

/-- `max g 1` is never zero. -/
theorem max_one_ne_zero (g : EReal) : max g 1 ≠ 0 :=
  ne_of_gt (lt_of_lt_of_le zero_lt_one (le_max_right g 1))

/-- Multiplying by the reciprocal of `max g 1` is dividing by it, for every extended real `a` and `g`. -/
theorem mul_recip_max_one (a g : EReal) : a * Ideal.div 1 (max g 1) = Ideal.div a (max g 1) := by
  unfold Ideal.div
  rw [if_neg (max_one_ne_zero g), if_neg (max_one_ne_zero g), one_mul]

/-- The single-precision pattern `0x3F800000` denotes the real number one. -/
theorem ofBits_one_f32 : Ideal.ofBits .f32 0x3F800000#32 = 1 := by
  simp [Ideal.ofBits, Ideal.ieee, -EReal.coe_mul]; norm_num

/-- The logistic function is the quotient `1 / (1 + e^(-z))` written with the pattern of one. -/
theorem logistic_eq_quotient (z : EReal) :
    Ideal.div (Ideal.ofBits .f32 0x3F800000#32) (Ideal.ofBits .f32 0x3F800000#32 + Ideal.exp (-z)) = Ideal.logistic z := by
  rw [ofBits_one_f32]; rfl

end Cert.Sage

end
-- ==== Proof.PayHidden.lean ====
/-
  The hidden layer's kernel body at one entry of its 4000 × 256 output block.

  The body loads a 4000 × 128 block of the neighbour mean and the matching block of the node features, the two
  128 × 256 weight matrices and the bias as a 1 × 256 row; it narrows all four matrix operands (the identity on the
  extended reals), forms the two matrix products into zero accumulators, adds them, adds the bias row broadcast down
  the rows, and takes the maximum with zero. At row `p`, column `q` of the block that is

      max (Σ_k mean[p,k] · Wl[k,q] + Σ_k feat[p,k] · Wr[k,q] + b[0,q]) 0,

  the layer's formula `Cert.Sage.lin` on the block, under the rectifier. Each product's sum runs over the one
  contracted axis; it is re-indexed from the product's own contraction index to `k : Fin 128`.
-/
import proofs.«152443_j55009941127683_1_alg».proof.Proof.Gen.KernelIdeal.Skeleton
import proofs.«152443_j55009941127683_1_alg».proof.Proof.SageSpec
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.Sage.Hidden

open Cert.KernelIdeal Cert.KernelIdeal.Gen

/-- The left operand of the block product is read at the output's row … -/
theorem lhs_row (i : S4000x256.Idx) (s : dot_S4000x128_S128x256_S4000x256_1_0_0_1_n_n.contr.Idx) :
    (dot_S4000x128_S128x256_S4000x256_1_0_0_1_n_n.lhsIdx i s 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
/-- … and at the contraction index's one coordinate. -/
theorem lhs_col (i : S4000x256.Idx) (s : dot_S4000x128_S128x256_S4000x256_1_0_0_1_n_n.contr.Idx) :
    (dot_S4000x128_S128x256_S4000x256_1_0_0_1_n_n.lhsIdx i s 1).val = (s ⟨0, by decide⟩).val :=
  dot_S4000x128_S128x256_S4000x256_1_0_0_1_n_n.lhsIdx_val_of_single rfl i s
/-- The right operand is read at the contraction index's coordinate … -/
theorem rhs_row (i : S4000x256.Idx) (s : dot_S4000x128_S128x256_S4000x256_1_0_0_1_n_n.contr.Idx) :
    (dot_S4000x128_S128x256_S4000x256_1_0_0_1_n_n.rhsIdx i s 0).val = (s ⟨0, by decide⟩).val :=
  dot_S4000x128_S128x256_S4000x256_1_0_0_1_n_n.rhsIdx_val_of_single rfl i s
/-- … and at the output's column. -/
theorem rhs_col (i : S4000x256.Idx) (s : dot_S4000x128_S128x256_S4000x256_1_0_0_1_n_n.contr.Idx) :
    (dot_S4000x128_S128x256_S4000x256_1_0_0_1_n_n.rhsIdx i s 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- A block product into the zero accumulator, at row `p` and column `q`, is the sum over `k` of the left operand's
    row entry times the right operand's column entry. -/
theorem matmul_apply (l : FVec Ideal S4000x128 .bf16) (r : FVec Ideal S128x256 .bf16) (p : Fin 4000) (q : Fin 256) :
    matmul dot_S4000x128_S128x256_S4000x256_1_0_0_1_n_n none l r (constant S4000x256 .f32 0x00000000#32) (ix2 p q)
      = ∑ k : Fin 128, l (ix2 p k) * r (ix2 k q) := by
  show FloatOps.matmul dot_S4000x128_S128x256_S4000x256_1_0_0_1_n_n none l r (constant S4000x256 .f32 0x00000000#32) (ix2 p q) = _
  rw [Ideal.matmul_constant_zero_apply, ← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q) ((contrEquiv1 dot_S4000x128_S128x256_S4000x256_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x256_S4000x256_1_0_0_1_n_n.rhsIdx (ix2 p q) ((contrEquiv1 dot_S4000x128_S128x256_S4000x256_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row broadcast down the 4000 rows reads, at row `p` and column `q`, the row's entry at column `q`. -/
theorem bias_apply (b : FVec Ideal S1x256 .f32) (p : Fin 4000) (q : Fin 256) :
    broadcastTo S4000x256 b broadcasts_S1x256_S4000x256 (ix2 p q) = b (ix2 0 q) :=
  broadcastTo_apply b broadcasts_S1x256_S4000x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- THE BODY AT AN ENTRY: the stored value at row `p`, column `q` of the block is the rectified layer formula of the
    loaded blocks. -/
theorem pay_apply (x0 x1 : Vec Ideal S4000x128 .f32) (x2 x3 : Vec Ideal S128x256 .f32) (x4 : Vec Ideal S1x256 .f32)
    (p : Fin 4000) (q : Fin 256) :
    k0_pay1 (F := Ideal) x0 x1 x2 x3 x4 (ix2 p q)
      = max (Cert.Sage.lin x0 x1 x2 x3 (fun q => x4 (ix2 0 q)) p q) 0 := by
  unfold k0_pay1
  show FloatOps.maximumf (FloatOps.addf (FloatOps.addf
        (matmul (F := Ideal) dot_S4000x128_S128x256_S4000x256_1_0_0_1_n_n none (truncf (F := Ideal) .bf16 (shapeCast S4000x128 x0 shapeCasts_S4000x128_S4000x128) bitsLt_bf16_f32) (truncf (F := Ideal) .bf16 x2 bitsLt_bf16_f32) (constant S4000x256 .f32 0x00000000#32) (ix2 p q))
        (matmul (F := Ideal) dot_S4000x128_S128x256_S4000x256_1_0_0_1_n_n none (truncf (F := Ideal) .bf16 x1 bitsLt_bf16_f32) (truncf (F := Ideal) .bf16 x3 bitsLt_bf16_f32) (constant S4000x256 .f32 0x00000000#32) (ix2 p q)))
        (broadcastTo S4000x256 (shapeCast S1x256 x4 shapeCasts_S1x256_S1x256) broadcasts_S1x256_S4000x256 (ix2 p q)))
      (Scalar.ofBits (F := Ideal) .f32 0x00000000#32) = _
  rw [matmul_apply, matmul_apply, bias_apply, shapeCast_self, shapeCast_self,
    show Scalar.ofBits (F := Ideal) .f32 0x00000000#32 = 0 from Ideal.ofBits_zero_f32]
  rfl

end Cert.Sage.Hidden

end
-- ==== Proof.ArrHidden.lean ====
/-
  The hidden layer's array after its 25 grid points: one function of the arrays the region found.

  Grid point `t` stages rows `4000·t … 4000·t + 3999` of the neighbour mean and of the node features, the two weight
  matrices and the bias row whole, and writes back rows `4000·t … 4000·t + 3999` of the result. So what point `t`
  writes back is block `t` of the rectified layer formula of the WHOLE arrays (`flushed_eq`): row `p` of a staged
  block is row `4000·t + p` of its array, a weight or bias entry is the array's own. The 25 blocks tile the 100000
  rows — row `r` lies in block `r / 4000` — so the array ends holding that formula everywhere (`final`).
  Everything is stated at the contents `V` the region is entered with, whatever they are.
-/
import proofs.«152443_j55009941127683_1_alg».proof.Proof.Gen.KernelIdeal.Frame
import proofs.«152443_j55009941127683_1_alg».proof.Proof.PayHidden
import Idealize.ShloMosaic.Lib.Pipeline.Value

set_option maxRecDepth 16384

noncomputable section

open Idealize.ShloMosaic Idealize.ShloMosaic.TcCoe Idealize.ShloMosaic.ValueIdx Idealize.SL.Sem
open scoped BigOperators

namespace Cert.Sage.Hidden

open Cert.KernelIdeal Cert.KernelIdeal.Gen

variable (V : (c : Dev nD) → (b : Ref sig .tc) → Buf (Elt Ideal) ((c : Thread nD τ).loc b))

/-- The arrays the region reads, each at its literal type. -/
abbrev meanArr (c : Dev nD) : Vec Ideal S100000x128 .f32 := V c main_v24
abbrev featArr (c : Dev nD) : Vec Ideal S100000x128 .f32 := V c main_arg0
abbrev wlArr (c : Dev nD) : Vec Ideal S128x256 .f32 := V c main_arg2
abbrev wrArr (c : Dev nD) : Vec Ideal S128x256 .f32 := V c main_arg3
abbrev biasRow (c : Dev nD) : Vec Ideal S1x256 .f32 := V c main_v25

/-- The hidden features as one function of those arrays: the rectified layer formula at every row and column. -/
def hidden (c : Dev nD) : Vec Ideal S100000x256 .f32 :=
  Cert.Sage.reluLayer (meanArr V c) (featArr V c) (wlArr V c) (wrArr V c) (fun q => biasRow V c (ix2 0 q))

theorem origin2 : (![0, 0] : Fin 2 → Nat) = fun _ => 0 := funext fun a => by fin_cases a <;> rfl

/-- The index maps over the grid: the two row-blocked inputs move with the output's row block, every column block and
    every block of the weights and the bias is block 0, and the output's row block at point `t` is `t`. -/
theorem index_facts : ∀ t : Fin cfg0.N,
      win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of `hidden`. -/
theorem flushed_eq (c : Dev nD) (t : Fin cfg0.N) :
    (dat0 (F := Ideal) V c).flushed 5 t = ((cfg0.win 5).blk t).view.read (Elt Ideal) (hidden V c) := by
  show (cfg0.win 5).cut (grid0.coords t) ((dat0 (F := Ideal) V c).after 5 t) = _
  rw [after0_5]
  unfold out0_5
  rw [View.canon_unit_zero origin2]
  simp only [View.ld_unit_zero (S := S4000x128) origin2, View.ld_unit_zero (S := S128x256) origin2, View.ld_unit_zero (S := S1x256) origin2]
  obtain ⟨e00, e01, e10, e11, e20, e21, e30, e31, e40, e41, e50, e51⟩ := index_facts t
  funext j
  obtain ⟨p, q, rfl⟩ : ∃ (p : Fin 4000) (q : Fin 256), j = ix2 p q := ⟨j 0, j 1, eq_ix2 j⟩
  have ht : t.val < 25 := lt_of_lt_of_eq t.isLt (show cfg0.N = 25 from N_0)
  show k0_pay1 (F := Ideal) (iblk0 V c 0 t) (iblk0 V c 1 t) (iblk0 V c 2 t) (iblk0 V c 3 t) (iblk0 V c 4 t) (ix2 p q)
      = hidden V c (((cfg0.win 5).blk t).view.emb (ix2 p q))
  have hemb : ((cfg0.win 5).blk t).view.emb (ix2 p q)
      = ix2 (⟨t.val * 4000 + p.val, by have := p.isLt; omega⟩ : Fin 100000) q := funext fun a => Fin.ext (by
    match a with
    | ⟨0, _⟩ => show win0_5.index t (0 : Fin 2) * 4000 + 1 * p.val = t.val * 4000 + p.val; omega
    | ⟨1, _⟩ => show win0_5.index t (1 : Fin 2) * 256 + 1 * q.val = q.val; omega)
  rw [hemb]
  refine (pay_apply (iblk0 V c 0 t) (iblk0 V c 1 t) (iblk0 V c 2 t) (iblk0 V c 3 t) (iblk0 V c 4 t) p q).trans ?_
  unfold hidden Cert.Sage.reluLayer
  refine congrArg (fun z => max z 0) ?_
  refine Cert.Sage.lin_block (meanArr V c) (featArr V c) (wlArr V c) (wrArr V c) (fun q => biasRow V c (ix2 0 q))
    (iblk0 V c 0 t) (iblk0 V c 1 t) (iblk0 V c 2 t) (iblk0 V c 3 t) (fun q => iblk0 V c 4 t (ix2 0 q)) p
    (⟨t.val * 4000 + p.val, by have := p.isLt; omega⟩ : Fin 100000) q ?_ ?_ ?_ ?_ ?_
  · intro k
    show V c main_v24 (((cfg0.win 0).blk t).view.emb (ix2 p k)) = V c main_v24 (ix2 (⟨t.val * 4000 + p.val, _⟩ : Fin 100000) k)
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 128 + 1 * k.val = k.val; omega
  · intro k
    show V c main_arg0 (((cfg0.win 1).blk t).view.emb (ix2 p k)) = V c main_arg0 (ix2 (⟨t.val * 4000 + p.val, _⟩ : Fin 100000) k)
    refine congrArg _ (funext fun a => Fin.ext ?_)
    match a with
    | ⟨0, _⟩ => show win0_1.index t (0 : Fin 2) * 4000 + 1 * p.val = t.val * 4000 + p.val; omega
    | ⟨1, _⟩ => show win0_1.index t (1 : Fin 2) * 128 + 1 * k.val = k.val; omega
  · intro k
    show V c main_arg2 (((cfg0.win 2).blk t).view.emb (ix2 k q)) = V c main_arg2 (ix2 k q)
    refine congrArg _ (funext fun a => Fin.ext ?_)
    match a with
    | ⟨0, _⟩ => show win0_2.index t (0 : Fin 2) * 128 + 1 * k.val = k.val; omega
    | ⟨1, _⟩ => show win0_2.index t (1 : Fin 2) * 256 + 1 * q.val = q.val; omega
  · intro k
    show V c main_arg3 (((cfg0.win 3).blk t).view.emb (ix2 k q)) = V c main_arg3 (ix2 k q)
    refine congrArg _ (funext fun a => Fin.ext ?_)
    match a with
    | ⟨0, _⟩ => show win0_3.index t (0 : Fin 2) * 128 + 1 * k.val = k.val; omega
    | ⟨1, _⟩ => show win0_3.index t (1 : Fin 2) * 256 + 1 * q.val = q.val; omega
  · show V c main_v25 (((cfg0.win 4).blk t).view.emb (ix2 0 q)) = V c main_v25 (ix2 0 q)
    refine congrArg _ (funext fun a => Fin.ext ?_)
    match a with
    | ⟨0, _⟩ => show win0_4.index t (0 : Fin 2) * 1 + 1 * 0 = 0; omega
    | ⟨1, _⟩ => show win0_4.index t (1 : Fin 2) * 256 + 1 * q.val = q.val; omega

/-- An index of the array is in point `t`'s block iff each coordinate is in the block's range on its axis. -/
theorem mem_blk (t : Fin cfg0.N) (i : S100000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v26).slice (win0_5.rect t)).set ↔ _
  rw [View.set_slice_whole, Rect.mem_set_unit]
  exact Iff.rfl

/-- Every index of the array lies in the block of the point `row / 4000`, which writes back. -/
theorem cover (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  have hlt : (i 0).val / 4000 < cfg0.N := lt_of_lt_of_eq (show (i 0).val / 4000 < 25 by omega) (show cfg0.N = 25 from N_0).symm
  obtain ⟨-, -, -, -, -, -, -, -, -, -, e50, e51⟩ := index_facts ⟨(i 0).val / 4000, hlt⟩
  have e50' : win0_5.index ⟨(i 0).val / 4000, hlt⟩ (0 : Fin 2) = (i 0).val / 4000 := e50
  refine ⟨⟨(i 0).val / 4000, hlt⟩, flush0_5 _, ?_⟩
  rw [mem_blk]
  intro a
  match a with
  | ⟨0, _⟩ => show win0_5.index ⟨(i 0).val / 4000, hlt⟩ (0 : Fin 2) * 4000 ≤ (i 0).val ∧ (i 0).val < win0_5.index ⟨(i 0).val / 4000, hlt⟩ (0 : Fin 2) * 4000 + 4000; omega
  | ⟨1, _⟩ => show win0_5.index ⟨(i 0).val / 4000, hlt⟩ (1 : Fin 2) * 256 ≤ (i 1).val ∧ (i 1).val < win0_5.index ⟨(i 0).val / 4000, hlt⟩ (1 : Fin 2) * 256 + 256; omega

/-- THE ARRAY after the region: the hidden features, everywhere. -/
theorem final (c : Dev nD) : (dat0 (F := Ideal) V c).arrAt 5 cfg0.N = hidden V c :=
  (dat0 (F := Ideal) V c).arrAt_eq_of_cover 5 (hidden V c) (fun t _ => flushed_eq V c t) (cover)

end Cert.Sage.Hidden

end
-- ==== Proof.PayOutput.lean ====
/-
  The output layer's kernel body at one entry of its 4000 × 100 output block.

  The body loads a 4000 × 256 block of the second neighbour mean and the matching block of the hidden features,
  the two 256 × 100 weight matrices and the bias as a 1 × 100 row; the narrowing of the operands is the identity on
  the extended reals; the two products go into zero accumulators and are added, the bias row is added to every row,
  and the logistic function is applied. At row `p`, column `q` of the block that is

      logistic (Σ_k mean[p,k] · Wl[k,q] + Σ_k hid[p,k] · Wr[k,q] + b[0,q]),

  the layer's formula `Cert.Sage.lin` on the block under the logistic function, the sums over `k : Fin 256`.
-/
import proofs.«152443_j55009941127683_1_alg».proof.Proof.Gen.KernelIdeal.Skeleton
import proofs.«152443_j55009941127683_1_alg».proof.Proof.SageSpec
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.Sage.Output

open Cert.KernelIdeal Cert.KernelIdeal.Gen

/-- The left operand of the block product is read at the output's row … -/
theorem lhs_row (i : S4000x100.Idx) (s : dot_S4000x256_S256x100_S4000x100_1_0_0_1_n_n.contr.Idx) :
    (dot_S4000x256_S256x100_S4000x100_1_0_0_1_n_n.lhsIdx i s 0).val = (i 0).val := by
  unfold DotDims.lhsIdx
  rw [dif_neg (show ¬(0 : Fin S4000x256.rank) ∈ dot_S4000x256_S256x100_S4000x100_1_0_0_1_n_n.lhsBatch by decide), dif_pos (show (0 : Fin S4000x256.rank) ∈ dot_S4000x256_S256x100_S4000x100_1_0_0_1_n_n.lhsNonContracting by decide)]
  rfl
/-- … and at the contraction index's one coordinate. -/
theorem lhs_col (i : S4000x100.Idx) (s : dot_S4000x256_S256x100_S4000x100_1_0_0_1_n_n.contr.Idx) :
    (dot_S4000x256_S256x100_S4000x100_1_0_0_1_n_n.lhsIdx i s 1).val = (s ⟨0, by decide⟩).val :=
  dot_S4000x256_S256x100_S4000x100_1_0_0_1_n_n.lhsIdx_val_of_single rfl i s
/-- The right operand is read at the contraction index's coordinate … -/
theorem rhs_row (i : S4000x100.Idx) (s : dot_S4000x256_S256x100_S4000x100_1_0_0_1_n_n.contr.Idx) :
    (dot_S4000x256_S256x100_S4000x100_1_0_0_1_n_n.rhsIdx i s 0).val = (s ⟨0, by decide⟩).val :=
  dot_S4000x256_S256x100_S4000x100_1_0_0_1_n_n.rhsIdx_val_of_single rfl i s
/-- … and at the output's column. -/
theorem rhs_col (i : S4000x100.Idx) (s : dot_S4000x256_S256x100_S4000x100_1_0_0_1_n_n.contr.Idx) :
    (dot_S4000x256_S256x100_S4000x100_1_0_0_1_n_n.rhsIdx i s 1).val = (i 1).val := by
  unfold DotDims.rhsIdx
  rw [dif_neg (show ¬(1 : Fin S256x100.rank) ∈ dot_S4000x256_S256x100_S4000x100_1_0_0_1_n_n.rhsBatch by decide), dif_pos (show (1 : Fin S256x100.rank) ∈ dot_S4000x256_S256x100_S4000x100_1_0_0_1_n_n.rhsNonContracting by decide)]
  rfl

/-- A block product into the zero accumulator, at row `p` and column `q`, is the sum over `k` of the left operand's
    row entry times the right operand's column entry. -/
theorem matmul_apply (l : FVec Ideal S4000x256 .bf16) (r : FVec Ideal S256x100 .bf16) (p : Fin 4000) (q : Fin 100) :
    matmul dot_S4000x256_S256x100_S4000x100_1_0_0_1_n_n none l r (constant S4000x100 .f32 0x00000000#32) (ix2 p q)
      = ∑ k : Fin 256, l (ix2 p k) * r (ix2 k q) := by
  show FloatOps.matmul dot_S4000x256_S256x100_S4000x100_1_0_0_1_n_n none l r (constant S4000x100 .f32 0x00000000#32) (ix2 p q) = _
  rw [Ideal.matmul_constant_zero_apply, ← Equiv.sum_comp (contrEquiv1 dot_S4000x256_S256x100_S4000x100_1_0_0_1_n_n 256 rfl rfl).symm]
  refine Finset.sum_congr rfl fun k _ => ?_
  have hk := contrEquiv1_symm_val dot_S4000x256_S256x100_S4000x100_1_0_0_1_n_n 256 rfl rfl k
  have el : dot_S4000x256_S256x100_S4000x100_1_0_0_1_n_n.lhsIdx (ix2 p q) ((contrEquiv1 dot_S4000x256_S256x100_S4000x100_1_0_0_1_n_n 256 rfl rfl).symm k) = ix2 p k := funext fun a => Fin.ext (by
    match a with
    | ⟨0, _⟩ => exact lhs_row _ _
    | ⟨1, _⟩ => exact (lhs_col _ _).trans hk)
  have er : dot_S4000x256_S256x100_S4000x100_1_0_0_1_n_n.rhsIdx (ix2 p q) ((contrEquiv1 dot_S4000x256_S256x100_S4000x100_1_0_0_1_n_n 256 rfl rfl).symm k) = ix2 k q := funext fun a => Fin.ext (by
    match a with
    | ⟨0, _⟩ => exact (rhs_row _ _).trans hk
    | ⟨1, _⟩ => exact rhs_col _ _)
  rw [el, er]

/-- The bias row broadcast down the 4000 rows reads, at row `p` and column `q`, the row's entry at column `q`. -/
theorem bias_apply (b : FVec Ideal S1x100 .f32) (p : Fin 4000) (q : Fin 100) :
    broadcastTo S4000x100 b broadcasts_S1x100_S4000x100 (ix2 p q) = b (ix2 0 q) :=
  broadcastTo_apply b broadcasts_S1x100_S4000x100 (ix2 p q) (ix2 0 q) (fun a => match a with
    | ⟨0, _⟩ => by show 0 = if (1 : Nat) = 1 then 0 else _; rw [if_pos rfl]
    | ⟨1, _⟩ => by show q.val = if (100 : Nat) = 1 then 0 else q.val; rw [if_neg (by decide)])

/-- THE BODY AT AN ENTRY: the stored value at row `p`, column `q` of the block is the logistic function of the layer
    formula of the loaded blocks. -/
theorem pay_apply (x0 x1 : Vec Ideal S4000x256 .f32) (x2 x3 : Vec Ideal S256x100 .f32) (x4 : Vec Ideal S1x100 .f32)
    (p : Fin 4000) (q : Fin 100) :
    k1_pay1 (F := Ideal) x0 x1 x2 x3 x4 (ix2 p q)
      = Ideal.logistic (Cert.Sage.lin x0 x1 x2 x3 (fun q => x4 (ix2 0 q)) p q) := by
  unfold k1_pay1
  show FloatOps.logistic (FloatOps.addf (FloatOps.addf
        (matmul (F := Ideal) dot_S4000x256_S256x100_S4000x100_1_0_0_1_n_n none (truncf (F := Ideal) .bf16 (shapeCast S4000x256 x0 shapeCasts_S4000x256_S4000x256) bitsLt_bf16_f32) (truncf (F := Ideal) .bf16 x2 bitsLt_bf16_f32) (constant S4000x100 .f32 0x00000000#32) (ix2 p q))
        (matmul (F := Ideal) dot_S4000x256_S256x100_S4000x100_1_0_0_1_n_n none (truncf (F := Ideal) .bf16 (shapeCast S4000x256 x1 shapeCasts_S4000x256_S4000x256) bitsLt_bf16_f32) (truncf (F := Ideal) .bf16 x3 bitsLt_bf16_f32) (constant S4000x100 .f32 0x00000000#32) (ix2 p q)))
        (broadcastTo S4000x100 (shapeCast S1x100 x4 shapeCasts_S1x100_S1x100) broadcasts_S1x100_S4000x100 (ix2 p q))) = _
  rw [matmul_apply, matmul_apply, bias_apply, shapeCast_self, shapeCast_self, shapeCast_self]
  rfl

end Cert.Sage.Output

end
-- ==== Proof.ArrOutput.lean ====
/-
  The output layer's array after its 25 grid points: one function of the arrays the region found.

  Grid point `t` stages rows `4000·t … 4000·t + 3999` of the second neighbour mean and of the hidden features
  (both 100000 × 256), the two 256 × 100 weight matrices and the 1 × 100 bias row whole, and writes back the same rows
  of the 100000 × 100 result. What point `t` writes back is therefore block `t` of the logistic layer formula of the
  WHOLE arrays (`flushed_eq`), and since row `r` lies in block `r / 4000` the 25 blocks tile the rows and the array
  ends holding that formula everywhere (`final`). Stated at whatever contents `V` the region is entered with.
-/
import proofs.«152443_j55009941127683_1_alg».proof.Proof.Gen.KernelIdeal.Frame
import proofs.«152443_j55009941127683_1_alg».proof.Proof.PayOutput
import Idealize.ShloMosaic.Lib.Pipeline.Value

set_option maxRecDepth 16384

noncomputable section

open Idealize.ShloMosaic Idealize.ShloMosaic.TcCoe Idealize.ShloMosaic.ValueIdx Idealize.SL.Sem
open scoped BigOperators

namespace Cert.Sage.Output

open Cert.KernelIdeal Cert.KernelIdeal.Gen

variable (V : (c : Dev nD) → (b : Ref sig .tc) → Buf (Elt Ideal) ((c : Thread nD τ).loc b))

/-- The arrays the region reads, each at its literal type. -/
abbrev meanArr (c : Dev nD) : Vec Ideal S100000x256 .f32 := V c main_v39
abbrev featArr (c : Dev nD) : Vec Ideal S100000x256 .f32 := V c main_v26
abbrev wlArr (c : Dev nD) : Vec Ideal S256x100 .f32 := V c main_arg5
abbrev wrArr (c : Dev nD) : Vec Ideal S256x100 .f32 := V c main_arg6
abbrev biasRow (c : Dev nD) : Vec Ideal S1x100 .f32 := V c main_v40

/-- The class scores as one function of those arrays: the logistic layer formula at every row and column. -/
def scores (c : Dev nD) : Vec Ideal S100000x100 .f32 :=
  Cert.Sage.sigmLayer (meanArr V c) (featArr V c) (wlArr V c) (wrArr V c) (fun q => biasRow V c (ix2 0 q))

theorem origin2 : (![0, 0] : Fin 2 → Nat) = fun _ => 0 := funext fun a => by fin_cases a <;> rfl

/-- The index maps over the grid: the two row-blocked inputs move with the output's row block, every column block and
    every block of the weights and the bias is block 0, and the output's row block at point `t` is `t`. -/
theorem index_facts : ∀ t : Fin cfg1.N,
      win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of `scores`. -/
theorem flushed_eq (c : Dev nD) (t : Fin cfg1.N) :
    (dat1 (F := Ideal) V c).flushed 5 t = ((cfg1.win 5).blk t).view.read (Elt Ideal) (scores V c) := by
  show (cfg1.win 5).cut (grid1.coords t) ((dat1 (F := Ideal) V c).after 5 t) = _
  rw [after1_5]
  unfold out1_5
  rw [View.canon_unit_zero origin2]
  simp only [View.ld_unit_zero (S := S4000x256) origin2, View.ld_unit_zero (S := S256x100) origin2, View.ld_unit_zero (S := S1x100) origin2]
  obtain ⟨e00, e01, e10, e11, e20, e21, e30, e31, e40, e41, e50, e51⟩ := index_facts t
  funext j
  obtain ⟨p, q, rfl⟩ : ∃ (p : Fin 4000) (q : Fin 100), j = ix2 p q := ⟨j 0, j 1, eq_ix2 j⟩
  have ht : t.val < 25 := lt_of_lt_of_eq t.isLt (show cfg1.N = 25 from N_1)
  show k1_pay1 (F := Ideal) (iblk1 V c 0 t) (iblk1 V c 1 t) (iblk1 V c 2 t) (iblk1 V c 3 t) (iblk1 V c 4 t) (ix2 p q)
      = scores V c (((cfg1.win 5).blk t).view.emb (ix2 p q))
  have hemb : ((cfg1.win 5).blk t).view.emb (ix2 p q)
      = ix2 (⟨t.val * 4000 + p.val, by have := p.isLt; omega⟩ : Fin 100000) q := funext fun a => Fin.ext (by
    match a with
    | ⟨0, _⟩ => show win1_5.index t (0 : Fin 2) * 4000 + 1 * p.val = t.val * 4000 + p.val; omega
    | ⟨1, _⟩ => show win1_5.index t (1 : Fin 2) * 100 + 1 * q.val = q.val; omega)
  rw [hemb]
  refine (pay_apply (iblk1 V c 0 t) (iblk1 V c 1 t) (iblk1 V c 2 t) (iblk1 V c 3 t) (iblk1 V c 4 t) p q).trans ?_
  unfold scores Cert.Sage.sigmLayer
  refine congrArg Ideal.logistic ?_
  refine Cert.Sage.lin_block (meanArr V c) (featArr V c) (wlArr V c) (wrArr V c) (fun q => biasRow V c (ix2 0 q))
    (iblk1 V c 0 t) (iblk1 V c 1 t) (iblk1 V c 2 t) (iblk1 V c 3 t) (fun q => iblk1 V c 4 t (ix2 0 q)) p
    (⟨t.val * 4000 + p.val, by have := p.isLt; omega⟩ : Fin 100000) q ?_ ?_ ?_ ?_ ?_
  · intro k
    show V c main_v39 (((cfg1.win 0).blk t).view.emb (ix2 p k)) = V c main_v39 (ix2 (⟨t.val * 4000 + p.val, _⟩ : Fin 100000) k)
    refine congrArg _ (funext fun a => Fin.ext ?_)
    match a with
    | ⟨0, _⟩ => show win1_0.index t (0 : Fin 2) * 4000 + 1 * p.val = t.val * 4000 + p.val; omega
    | ⟨1, _⟩ => show win1_0.index t (1 : Fin 2) * 256 + 1 * k.val = k.val; omega
  · intro k
    show V c main_v26 (((cfg1.win 1).blk t).view.emb (ix2 p k)) = V c main_v26 (ix2 (⟨t.val * 4000 + p.val, _⟩ : Fin 100000) k)
    refine congrArg _ (funext fun a => Fin.ext ?_)
    match a with
    | ⟨0, _⟩ => show win1_1.index t (0 : Fin 2) * 4000 + 1 * p.val = t.val * 4000 + p.val; omega
    | ⟨1, _⟩ => show win1_1.index t (1 : Fin 2) * 256 + 1 * k.val = k.val; omega
  · intro k
    show V c main_arg5 (((cfg1.win 2).blk t).view.emb (ix2 k q)) = V c main_arg5 (ix2 k q)
    refine congrArg _ (funext fun a => Fin.ext ?_)
    match a with
    | ⟨0, _⟩ => show win1_2.index t (0 : Fin 2) * 256 + 1 * k.val = k.val; omega
    | ⟨1, _⟩ => show win1_2.index t (1 : Fin 2) * 100 + 1 * q.val = q.val; omega
  · intro k
    show V c main_arg6 (((cfg1.win 3).blk t).view.emb (ix2 k q)) = V c main_arg6 (ix2 k q)
    refine congrArg _ (funext fun a => Fin.ext ?_)
    match a with
    | ⟨0, _⟩ => show win1_3.index t (0 : Fin 2) * 256 + 1 * k.val = k.val; omega
    | ⟨1, _⟩ => show win1_3.index t (1 : Fin 2) * 100 + 1 * q.val = q.val; omega
  · show V c main_v40 (((cfg1.win 4).blk t).view.emb (ix2 0 q)) = V c main_v40 (ix2 0 q)
    refine congrArg _ (funext fun a => Fin.ext ?_)
    match a with
    | ⟨0, _⟩ => show win1_4.index t (0 : Fin 2) * 1 + 1 * 0 = 0; omega
    | ⟨1, _⟩ => show win1_4.index t (1 : Fin 2) * 100 + 1 * q.val = q.val; omega

/-- An index of the array is in point `t`'s block iff each coordinate is in the block's range on its axis. -/
theorem mem_blk (t : Fin cfg1.N) (i : S100000x100.Idx) :
    i ∈ ((cfg1.win 5).blk t).view.set ↔ ∀ a : Fin 2, win1_5.index t a * S4000x100.size a ≤ (i a).val ∧ (i a).val < win1_5.index t a * S4000x100.size a + S4000x100.size a := by
  show i ∈ ((View.whole main_v41).slice (win1_5.rect t)).set ↔ _
  rw [View.set_slice_whole, Rect.mem_set_unit]
  exact Iff.rfl

/-- Every index of the array lies in the block of the point `row / 4000`, which writes back. -/
theorem cover (i : S100000x100.Idx) :
    ∃ t : Fin cfg1.N, (cfg1.win 5).flush t = true ∧ i ∈ ((cfg1.win 5).blk t).view.set := by
  have hi0 : (i 0).val < 100000 := (i 0).isLt
  have hi1 : (i 1).val < 100 := (i 1).isLt
  have hlt : (i 0).val / 4000 < cfg1.N := lt_of_lt_of_eq (show (i 0).val / 4000 < 25 by omega) (show cfg1.N = 25 from N_1).symm
  obtain ⟨-, -, -, -, -, -, -, -, -, -, e50, e51⟩ := index_facts ⟨(i 0).val / 4000, hlt⟩
  have e50' : win1_5.index ⟨(i 0).val / 4000, hlt⟩ (0 : Fin 2) = (i 0).val / 4000 := e50
  refine ⟨⟨(i 0).val / 4000, hlt⟩, flush1_5 _, ?_⟩
  rw [mem_blk]
  intro a
  match a with
  | ⟨0, _⟩ => show win1_5.index ⟨(i 0).val / 4000, hlt⟩ (0 : Fin 2) * 4000 ≤ (i 0).val ∧ (i 0).val < win1_5.index ⟨(i 0).val / 4000, hlt⟩ (0 : Fin 2) * 4000 + 4000; omega
  | ⟨1, _⟩ => show win1_5.index ⟨(i 0).val / 4000, hlt⟩ (1 : Fin 2) * 100 ≤ (i 1).val ∧ (i 1).val < win1_5.index ⟨(i 0).val / 4000, hlt⟩ (1 : Fin 2) * 100 + 100; omega

/-- THE ARRAY after the region: the class scores, everywhere. -/
theorem final (c : Dev nD) : (dat1 (F := Ideal) V c).arrAt 5 cfg1.N = scores V c :=
  (dat1 (F := Ideal) V c).arrAt_eq_of_cover 5 (scores V c) (fun t _ => flushed_eq V c t) (cover)

end Cert.Sage.Output

end
-- ==== Proof.HostReads.lean ====
/-
  What the two regions find in their arrays, and what the program returns, as terms of the launch memory.

  The generated run folds the buffer contents through @main's four segments: `W1` after the first host stretch
  (the hidden layer's entry), `W2` after its region, `W3` after the second host stretch (the output layer's entry),
  `W4` at the return. Each lemma here reads one buffer at one boundary: a host operation's result is its function of
  the operands' contents, a buffer no operation of a stretch writes keeps its contents, and a region leaves in its
  output array the layer's whole-array function of what it found (ArrHidden, ArrOutput). Chained, the result buffer
  holds `scoresK`: the output layer over the mean of the hidden layer, which is the hidden layer over the mean of
  the input features.
-/
import proofs.«152443_j55009941127683_1_alg».proof.Proof.Gen.KernelIdeal.Frame
import proofs.«152443_j55009941127683_1_alg».proof.Proof.HostTerms
import proofs.«152443_j55009941127683_1_alg».proof.Proof.ArrHidden
import proofs.«152443_j55009941127683_1_alg».proof.Proof.ArrOutput
import Idealize.ShloMosaic.Lib.StableHlo.Run
import Idealize.ShloMosaic.PureOps.Ideal

set_option maxRecDepth 16384

noncomputable section

open Idealize.ShloMosaic Idealize.ShloMosaic.TcCoe Idealize.ShloMosaic.ValueIdx Idealize.SL.Sem Idealize.ShloMosaic.StableHlo

namespace Cert.Sage.KHost

open Cert.KernelIdeal Cert.KernelIdeal.Gen

variable {F : FTy → Type} [FloatOps F]

variable (m : (ℓ : Loc nD τ sig) → Buf (Elt F) ℓ) (ρ : Dev nD → PrngReg)

/-! ## After the first host stretch -/

theorem W1_srcIds (c : Dev nD) : W1 m ρ c (Proc.devRef .tc main_v1) = srcIds (m ((c : Thread nD τ).loc main_arg1)) := by
  show StableHlo.after hostOps0 (W0 m ρ c) (Proc.devRef .tc main_v1) = _
  after_results_simp <;> rfl
theorem W1_dstIds (c : Dev nD) : W1 m ρ c (Proc.devRef .tc main_v3) = dstIds (m ((c : Thread nD τ).loc main_arg1)) := by
  show StableHlo.after hostOps0 (W0 m ρ c) (Proc.devRef .tc main_v3) = _
  after_results_simp <;> rfl
theorem W1_invDeg (c : Dev nD) : W1 m ρ c (Proc.devRef .tc main_v11) = invDeg (dstIds (m ((c : Thread nD τ).loc main_arg1))) := by
  show StableHlo.after hostOps0 (W0 m ρ c) (Proc.devRef .tc main_v11) = _
  after_results_simp <;> rfl
theorem W1_mean (c : Dev nD) : W1 m ρ c (Proc.devRef .tc main_v24)
    = meanIn (m ((c : Thread nD τ).loc main_arg0)) (srcIds (m ((c : Thread nD τ).loc main_arg1))) (dstIds (m ((c : Thread nD τ).loc main_arg1)))
        (invDeg (dstIds (m ((c : Thread nD τ).loc main_arg1)))) := by
  show StableHlo.after hostOps0 (W0 m ρ c) (Proc.devRef .tc main_v24) = _
  after_results_simp <;> rfl
theorem W1_bias (c : Dev nD) : W1 m ρ c (Proc.devRef .tc main_v25)
    = shapeCast S1x256 (m ((c : Thread nD τ).loc main_arg4)) shapeCasts_S256_S1x256 := by
  show StableHlo.after hostOps0 (W0 m ρ c) (Proc.devRef .tc main_v25) = _
  after_results_simp <;> rfl
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl

theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

/-! ## After the hidden layer's region: only its output array changed -/

theorem W2_srcIds (c : Dev nD) : W2 m ρ c (Proc.devRef .tc main_v1) = srcIds (m ((c : Thread nD τ).loc main_arg1)) :=
  (W2_of_ne m ρ c main_v1 (by decide)).trans (W1_srcIds m ρ c)
theorem W2_dstIds (c : Dev nD) : W2 m ρ c (Proc.devRef .tc main_v3) = dstIds (m ((c : Thread nD τ).loc main_arg1)) :=
  (W2_of_ne m ρ c main_v3 (by decide)).trans (W1_dstIds m ρ c)
theorem W2_invDeg (c : Dev nD) : W2 m ρ c (Proc.devRef .tc main_v11) = invDeg (dstIds (m ((c : Thread nD τ).loc main_arg1))) :=
  (W2_of_ne m ρ c main_v11 (by decide)).trans (W1_invDeg m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-! ## After the second host stretch -/

theorem W3_mean (c : Dev nD) : W3 m ρ c (Proc.devRef .tc main_v39)
    = meanHid (W2 m ρ c (Proc.devRef .tc main_v26)) (W2 m ρ c (Proc.devRef .tc main_v1)) (W2 m ρ c (Proc.devRef .tc main_v3))
        (W2 m ρ c (Proc.devRef .tc main_v11)) := by
  show StableHlo.after hostOps1 (W2 m ρ c) (Proc.devRef .tc main_v39) = _
  after_results_simp <;> rfl
theorem W3_hidden (c : Dev nD) : W3 m ρ c (Proc.devRef .tc main_v26) = W2 m ρ c (Proc.devRef .tc main_v26) := by
  show StableHlo.after hostOps1 (W2 m ρ c) (Proc.devRef .tc main_v26) = _
  after_results_simp <;> rfl
theorem W3_bias (c : Dev nD) : W3 m ρ c (Proc.devRef .tc main_v40)
    = shapeCast S1x100 (W2 m ρ c (Proc.devRef .tc main_arg7)) shapeCasts_S100_S1x100 := by
  show StableHlo.after hostOps1 (W2 m ρ c) (Proc.devRef .tc main_v40) = _
  after_results_simp <;> rfl
theorem W3_arg5 (c : Dev nD) : W3 m ρ c (Proc.devRef .tc main_arg5) = W2 m ρ c (Proc.devRef .tc main_arg5) := by
  show StableHlo.after hostOps1 (W2 m ρ c) (Proc.devRef .tc main_arg5) = _
  after_results_simp <;> rfl
theorem W3_arg6 (c : Dev nD) : W3 m ρ c (Proc.devRef .tc main_arg6) = W2 m ρ c (Proc.devRef .tc main_arg6) := by
  show StableHlo.after hostOps1 (W2 m ρ c) (Proc.devRef .tc main_arg6) = _
  after_results_simp <;> rfl

end Cert.Sage.KHost

end
-- ==== Proof.KernelValue.lean ====
/-
  The idealized kernel program's result, as one term of its arguments.

  `hiddenK` is the hidden layer over the mean of the input features, `scoresK` the output layer over the mean of
  `hiddenK` — each mean the neighbour sum times the reciprocal of `max(deg, 1)`. Reading the generated run's
  boundaries in order (HostReads) and each region's array as its layer's whole-array function (ArrHidden,
  ArrOutput): the hidden layer's region finds the input mean, the features, the weights and the bias row, and leaves
  `hiddenK`; the second host stretch forms the mean of that; the output layer's region leaves `scoresK` in the
  result buffer. A bias vector cast to one row reads, at row 0 and column `q`, its entry `q`.
-/
import proofs.«152443_j55009941127683_1_alg».proof.Proof.HostReads
import proofs.«152443_j55009941127683_1_alg».proof.Proof.SageSpec
import Idealize.ShloMosaic.Lib.Pipeline.Value

set_option maxRecDepth 16384

noncomputable section

open Idealize.ShloMosaic Idealize.ShloMosaic.TcCoe Idealize.ShloMosaic.ValueIdx Idealize.SL.Sem

namespace Cert.Sage.KHost

open Cert.KernelIdeal Cert.KernelIdeal.Gen Cert.KernelIdeal.Facts₀ Cert.KernelIdeal.Facts

/-- A vector of `n` entries cast to one row reads, at row 0 and column `q`, entry `q`. -/
theorem oneRow_apply {n : Nat} (h : (⟨1, ![n]⟩ : Shape).ShapeCasts (⟨2, ![1, n]⟩ : Shape)) (z : (⟨1, ![n]⟩ : Shape).Idx → EReal)
    (q : Fin n) : shapeCast (⟨2, ![1, n]⟩ : Shape) z h (ix2 (0 : Fin 1) q) = z (ix1 q) :=
  (shapeCast_addUnit_apply ![n] z h (ix2 (0 : Fin 1) q)).trans (congrArg z (funext fun a => by fin_cases a; rfl))

/-- The hidden features as the kernel program computes them. -/
def hiddenK (x : Vec Ideal S100000x128 .f32) (e : (⟨S2x640000, .i32⟩ : BufTy).Contents (Elt Ideal))
    (wl wr : Vec Ideal S128x256 .f32) (b : Vec Ideal S256 .f32) : Vec Ideal S100000x256 .f32 :=
  Cert.Sage.reluLayer (meanIn (F := Ideal) x (srcIds e) (dstIds e) (invDeg (dstIds e))) x wl wr (fun q => b (ix1 q))

/-- The class scores as the kernel program computes them. -/
def scoresK (x : Vec Ideal S100000x128 .f32) (e : (⟨S2x640000, .i32⟩ : BufTy).Contents (Elt Ideal))
    (wl wr : Vec Ideal S128x256 .f32) (b : Vec Ideal S256 .f32) (ul ur : Vec Ideal S256x100 .f32) (b' : Vec Ideal S100 .f32) :
    Vec Ideal S100000x100 .f32 :=
  Cert.Sage.sigmLayer (meanHid (F := Ideal) (hiddenK x e wl wr b) (srcIds e) (dstIds e) (invDeg (dstIds e)))
    (hiddenK x e wl wr b) ul ur (fun q => b' (ix1 q))

variable (m : (ℓ : Loc nD τ sig) → Buf (Elt Ideal) ℓ) (ρ : Dev nD → PrngReg)

/-- The hidden layer's region leaves `hiddenK` of the arguments in its output array. -/
theorem hidden_value (c : Dev nD) :
    W2 m ρ c (Proc.devRef .tc main_v26)
      = hiddenK (m ((c : Thread nD τ).loc main_arg0)) (m ((c : Thread nD τ).loc main_arg1)) (m ((c : Thread nD τ).loc main_arg2))
          (m ((c : Thread nD τ).loc main_arg3)) (m ((c : Thread nD τ).loc main_arg4)) := by
  refine ((W2_arr m ρ c 5).trans (Cert.Sage.Hidden.final (V1 m ρ) c)).trans ?_
  unfold Cert.Sage.Hidden.hidden hiddenK
  show Cert.Sage.reluLayer (W1 m ρ c (Proc.devRef .tc main_v24)) (W1 m ρ c (Proc.devRef .tc main_arg0))
      (W1 m ρ c (Proc.devRef .tc main_arg2)) (W1 m ρ c (Proc.devRef .tc main_arg3))
      (fun q => W1 m ρ c (Proc.devRef .tc main_v25) (ix2 (0 : Fin 1) q)) = _
  rw [W1_mean, W1_arg0, W1_arg2, W1_arg3, W1_bias]
  refine congrArg (Cert.Sage.reluLayer _ _ _ _) (funext fun q => ?_)
  exact oneRow_apply Facts₀.shapeCasts_S256_S1x256 _ q

/-- THE RESULT: at the return the result buffer holds `scoresK` of the arguments. -/
theorem result_value (c : Dev nD) :
    W4 m ρ c (Proc.devRef .tc main_v41)
      = scoresK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine ((W4_arr m ρ c 5).trans (Cert.Sage.Output.final (V3 m ρ) c)).trans ?_
  unfold Cert.Sage.Output.scores scoresK
  show Cert.Sage.sigmLayer (W3 m ρ c (Proc.devRef .tc main_v39)) (W3 m ρ c (Proc.devRef .tc main_v26))
      (W3 m ρ c (Proc.devRef .tc main_arg5)) (W3 m ρ c (Proc.devRef .tc main_arg6))
      (fun q => W3 m ρ c (Proc.devRef .tc main_v40) (ix2 (0 : Fin 1) q)) = _
  rw [W3_mean, W3_hidden, W3_arg5, W3_arg6, W3_bias, W2_srcIds, W2_dstIds, W2_invDeg, W2_arg5, W2_arg6, W2_arg7, hidden_value]
  refine congrArg (Cert.Sage.sigmLayer _ _ _ _) (funext fun q => ?_)
  exact oneRow_apply Facts₀.shapeCasts_S100_S1x100 _ q

end Cert.Sage.KHost

end
-- ==== Proof.RefLayers.lean ====
/-
  The reference's two layers are the layer formula.

  The reference computes each layer on whole arrays: two matrix products, their sum, the bias broadcast down the
  rows, then the activation (a maximum with zero; and for the output `1 / (1 + e^(-z))`, which on the extended reals
  is the logistic function by its definition). Read at row `i 0`, column `i 1` — a product as the sum over the
  contracted axis, a broadcast at the index it copies from — each layer is `Cert.Sage.lin` under its activation:
  the hidden features are `reluLayer` of the reference's first mean, the result is `sigmLayer` of its second mean
  and its hidden features.
-/
import proofs.«152443_j55009941127683_1_alg».proof.Proof.Gen.ReferenceIdeal.Read
import proofs.«152443_j55009941127683_1_alg».proof.Proof.SageSpec

noncomputable section

open Idealize.ShloMosaic Idealize.ShloMosaic.ValueIdx
open scoped BigOperators

namespace Cert.Sage.Ref

open Cert.ReferenceIdeal Cert.ReferenceIdeal.Read

/-- THE HIDDEN FEATURES of the reference are the rectified layer formula of its first neighbour mean. -/
theorem hidden_eq (x : (⟨S100000x128, .f32⟩ : BufTy).Contents (Elt Ideal)) (e : (⟨S2x640000, .i32⟩ : BufTy).Contents (Elt Ideal))
    (wl wr : (⟨S128x256, .f32⟩ : BufTy).Contents (Elt Ideal)) (b : (⟨S256, .f32⟩ : BufTy).Contents (Elt Ideal)) :
    val_main_v29 (F := Ideal) x e wl wr b
      = Cert.Sage.reluLayer (val_main_v22 (F := Ideal) x e) x wl wr (fun q => b (ix1 q)) := by
  funext i
  have el : ∀ k, lidx_main_v23 i k = ix2 (i 0) k := fun k => funext fun a => Fin.ext (by
    match a with | ⟨0, _⟩ => rfl | ⟨1, _⟩ => rfl)
  have er : ∀ k, ridx_main_v23 i k = ix2 k (i 1) := fun k => funext fun a => Fin.ext (by
    match a with | ⟨0, _⟩ => rfl | ⟨1, _⟩ => rfl)
  have el' : ∀ k, lidx_main_v24 i k = ix2 (i 0) k := fun k => funext fun a => Fin.ext (by
    match a with | ⟨0, _⟩ => rfl | ⟨1, _⟩ => rfl)
  have er' : ∀ k, ridx_main_v24 i k = ix2 k (i 1) := fun k => funext fun a => Fin.ext (by
    match a with | ⟨0, _⟩ => rfl | ⟨1, _⟩ => rfl)
  have eb : idx_main_v26 (idx_main_v27 i) = ix1 (i 1) := funext fun a => Fin.ext (by
    match a with | ⟨0, _⟩ => rfl)
  rw [val_main_v29_apply, val_main_v28_apply, val_main_v25_apply, val_main_v23_apply, val_main_v24_apply,
    val_main_v27_apply, val_main_v26_apply, val_main_call0_v0_apply, val_main_call0_cst_apply]
  simp only [el, er, el', er', eb]
  show max (_ + _ + _) (Ideal.ofBits .f32 0x00000000#32) = _
  rw [Ideal.ofBits_zero_f32]
  rfl

/-- THE RESULT of the reference is the logistic layer formula of its second neighbour mean and its hidden features. -/
theorem scores_eq (x : (⟨S100000x128, .f32⟩ : BufTy).Contents (Elt Ideal)) (e : (⟨S2x640000, .i32⟩ : BufTy).Contents (Elt Ideal))
    (wl wr : (⟨S128x256, .f32⟩ : BufTy).Contents (Elt Ideal)) (b : (⟨S256, .f32⟩ : BufTy).Contents (Elt Ideal))
    (ul ur : (⟨S256x100, .f32⟩ : BufTy).Contents (Elt Ideal)) (b' : (⟨S100, .f32⟩ : BufTy).Contents (Elt Ideal)) :
    val_main_v64 (F := Ideal) x e wl wr b ul ur b'
      = Cert.Sage.sigmLayer (val_main_v52 (F := Ideal) x e wl wr b) (val_main_v29 (F := Ideal) x e wl wr b) ul ur
          (fun q => b' (ix1 q)) := by
  funext i
  have el : ∀ k, lidx_main_v53 i k = ix2 (i 0) k := fun k => funext fun a => Fin.ext (by
    match a with | ⟨0, _⟩ => rfl | ⟨1, _⟩ => rfl)
  have er : ∀ k, ridx_main_v53 i k = ix2 k (i 1) := fun k => funext fun a => Fin.ext (by
    match a with | ⟨0, _⟩ => rfl | ⟨1, _⟩ => rfl)
  have el' : ∀ k, lidx_main_v54 i k = ix2 (i 0) k := fun k => funext fun a => Fin.ext (by
    match a with | ⟨0, _⟩ => rfl | ⟨1, _⟩ => rfl)
  have er' : ∀ k, ridx_main_v54 i k = ix2 k (i 1) := fun k => funext fun a => Fin.ext (by
    match a with | ⟨0, _⟩ => rfl | ⟨1, _⟩ => rfl)
  have eb : idx_main_v56 (idx_main_v57 i) = ix1 (i 1) := funext fun a => Fin.ext (by
    match a with | ⟨0, _⟩ => rfl)
  rw [val_main_v64_apply, val_main_v63_apply, val_main_cst_11_apply, val_main_v62_apply, val_main_v61_apply,
    val_main_cst_10_apply, val_main_v60_apply, val_main_v59_apply, val_main_v58_apply, val_main_v55_apply,
    val_main_v53_apply, val_main_v54_apply, val_main_v57_apply, val_main_v56_apply]
  simp only [el, er, el', er', eb, Ideal.hostDivf_def, Ideal.addf_def, Ideal.hostUnary_exp_def, Ideal.hostNegf_def,
    Ideal.negf_def, Ideal.ofBits_def]
  rw [Cert.Sage.logistic_eq_quotient]
  rfl

end Cert.Sage.Ref

end
-- ==== Proof.MeanLaw.lean ====
/-
  The two programs form the same neighbour mean.

  The kernel program multiplies the neighbour sum by the per-node reciprocal `1 / max(deg, 1)`, laid along the
  columns; the reference divides the neighbour sum by `max(deg, 1)`, laid along the columns. The sums are the same
  term in both — the scatter-add at the destinations of the rows gathered at the (wrapped) sources — and so is the
  degree. At row `r` both read the same per-node entry, and `a · (1 / max(g, 1)) = a / max(g, 1)` for all extended
  reals (`Cert.Sage.mul_recip_max_one`: the divisor is never zero). This holds at the input layer for any
  features `x` and at the hidden layer for any features `h`.
-/
import proofs.«152443_j55009941127683_1_alg».proof.Proof.HostTerms
import proofs.«152443_j55009941127683_1_alg».proof.Proof.Gen.ReferenceIdeal.Read
import proofs.«152443_j55009941127683_1_alg».proof.Proof.SageSpec
import Idealize.ShloMosaic.Lib.Pipeline.Value

noncomputable section

open Idealize.ShloMosaic Idealize.ShloMosaic.ValueIdx

namespace Cert.Sage.KHost

open Cert.KernelIdeal Cert.KernelIdeal.Facts₀ Cert.KernelIdeal.Facts

variable {F : FTy → Type} [FloatOps F]

/-- A per-node vector laid along the 128 columns reads, at row `i 0`, the node's entry. -/
theorem rowsIn_apply (v : (⟨S100000, .f32⟩ : BufTy).Contents (Elt F)) (i : S100000x128.Idx) :
    rowsIn v i = v (ix1 (i 0)) := by
  unfold rowsIn
  rw [broadcastInDim_apply _ bcast_S100000x1_S100000x128_0_1 _ i (ix2 (i 0) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  exact broadcastInDim_apply _ bcast_S100000_S100000x1_0 v (ix2 (i 0) (0 : Fin 1)) (ix1 (i 0)) (fun a => match a with
    | ⟨0, _⟩ => by show (i 0).val = if (100000 : Nat) = 1 then 0 else (i 0).val; rw [if_neg (by decide)])

/-- A per-node vector laid along the 256 columns reads, at row `i 0`, the node's entry. -/
theorem rowsHid_apply (v : (⟨S100000, .f32⟩ : BufTy).Contents (Elt F)) (i : S100000x256.Idx) :
    rowsHid v i = v (ix1 (i 0)) := by
  unfold rowsHid
  rw [broadcastInDim_apply _ bcast_S100000x1_S100000x256_0_1 _ i (ix2 (i 0) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  exact broadcastInDim_apply _ bcast_S100000_S100000x1_0 v (ix2 (i 0) (0 : Fin 1)) (ix1 (i 0)) (fun a => match a with
    | ⟨0, _⟩ => by show (i 0).val = if (100000 : Nat) = 1 then 0 else (i 0).val; rw [if_neg (by decide)])

/-- The vector of ones reads one at every node. -/
theorem ones_apply (j : S100000.Idx) :
    broadcastInDim S100000 ![] bcast_S_S100000 (constant (F := Ideal) S_ .f32 0x3F800000#32) j = 1 := by
  rw [broadcastInDim_apply _ bcast_S_S100000 _ j (fun a => a.elim0) (fun a => a.elim0)]
  show Ideal.ofBits .f32 0x3F800000#32 = 1
  exact Cert.Sage.ofBits_one_f32

/-- The reciprocal times a value is the value over `max(deg, 1)`, node by node. -/
theorem mul_invDeg (a : EReal) (d : (⟨S640000, .i32⟩ : BufTy).Contents (Elt Ideal)) (j : S100000.Idx) :
    a * invDeg (F := Ideal) d j = Ideal.div a (degMax (F := Ideal) d j) := by
  unfold invDeg degMax
  show a * FloatOps.hostDivf (broadcastInDim S100000 ![] bcast_S_S100000 (constant (F := Ideal) S_ .f32 0x3F800000#32) j)
        (FloatOps.maximumf _ (broadcastInDim S100000 ![] bcast_S_S100000 (constant (F := Ideal) S_ .f32 0x3F800000#32) j))
      = Ideal.div a (FloatOps.maximumf _ (broadcastInDim S100000 ![] bcast_S_S100000 (constant (F := Ideal) S_ .f32 0x3F800000#32) j))
  rw [ones_apply]
  exact Cert.Sage.mul_recip_max_one _ _

end Cert.Sage.KHost

namespace Cert.Sage.Law

open Cert.ReferenceIdeal Cert.ReferenceIdeal.Read Cert.Sage.KHost

/-- The neighbour sum of the input features is one term in both programs. -/
theorem aggIn_eq (x : (⟨S100000x128, .f32⟩ : BufTy).Contents (Elt Ideal)) (e : (⟨S2x640000, .i32⟩ : BufTy).Contents (Elt Ideal)) :
    aggIn (F := Ideal) x (srcIds e) (dstIds e) = val_main_v13 (F := Ideal) x e := rfl

/-- So is `max(deg, 1)`. -/
theorem degMax_eq (e : (⟨S2x640000, .i32⟩ : BufTy).Contents (Elt Ideal)) :
    degMax (F := Ideal) (dstIds e) = val_main_v19 (F := Ideal) e := rfl

/-- THE INPUT LAYER'S MEAN: the kernel program's product with the reciprocal is the reference's quotient. -/
theorem meanIn_eq (x : (⟨S100000x128, .f32⟩ : BufTy).Contents (Elt Ideal)) (e : (⟨S2x640000, .i32⟩ : BufTy).Contents (Elt Ideal)) :
    meanIn (F := Ideal) x (srcIds e) (dstIds e) (invDeg (dstIds e)) = val_main_v22 (F := Ideal) x e := by
  funext i
  have ej : idx_main_v20 (idx_main_v21 i) = ix1 (i 0) := funext fun a => Fin.ext (by match a with | ⟨0, _⟩ => rfl)
  rw [val_main_v22_apply, val_main_v21_apply, val_main_v20_apply, ej, ← aggIn_eq, ← degMax_eq]
  show aggIn (F := Ideal) x (srcIds e) (dstIds e) i * rowsIn (invDeg (F := Ideal) (dstIds e)) i = _
  rw [rowsIn_apply]
  exact mul_invDeg _ _ _

/-- The neighbour sum of the hidden features is one term in both programs, whatever the hidden features are. -/
theorem aggHid_eq (x : (⟨S100000x128, .f32⟩ : BufTy).Contents (Elt Ideal)) (e : (⟨S2x640000, .i32⟩ : BufTy).Contents (Elt Ideal))
    (wl wr : (⟨S128x256, .f32⟩ : BufTy).Contents (Elt Ideal)) (b : (⟨S256, .f32⟩ : BufTy).Contents (Elt Ideal)) :
    aggHid (F := Ideal) (val_main_v29 (F := Ideal) x e wl wr b) (srcIds e) (dstIds e) = val_main_v43 (F := Ideal) x e wl wr b := rfl

/-- The reference recomputes `max(deg, 1)` for the second layer: the same term again. -/
theorem degMax_eq' (e : (⟨S2x640000, .i32⟩ : BufTy).Contents (Elt Ideal)) :
    degMax (F := Ideal) (dstIds e) = val_main_v49 (F := Ideal) e := rfl

/-- THE HIDDEN LAYER'S MEAN: over the reference's hidden features, the product with the reciprocal is the quotient. -/
theorem meanHid_eq (x : (⟨S100000x128, .f32⟩ : BufTy).Contents (Elt Ideal)) (e : (⟨S2x640000, .i32⟩ : BufTy).Contents (Elt Ideal))
    (wl wr : (⟨S128x256, .f32⟩ : BufTy).Contents (Elt Ideal)) (b : (⟨S256, .f32⟩ : BufTy).Contents (Elt Ideal)) :
    meanHid (F := Ideal) (val_main_v29 (F := Ideal) x e wl wr b) (srcIds e) (dstIds e) (invDeg (dstIds e))
      = val_main_v52 (F := Ideal) x e wl wr b := by
  funext i
  have ej : idx_main_v50 (idx_main_v51 i) = ix1 (i 0) := funext fun a => Fin.ext (by match a with | ⟨0, _⟩ => rfl)
  rw [val_main_v52_apply, val_main_v51_apply, val_main_v50_apply, ej, ← aggHid_eq, ← degMax_eq']
  show aggHid (F := Ideal) (val_main_v29 (F := Ideal) x e wl wr b) (srcIds e) (dstIds e) i * rowsHid (invDeg (F := Ideal) (dstIds e)) i = _
  rw [rowsHid_apply]
  exact mul_invDeg _ _ _

end Cert.Sage.Law

end
-- ==== Proof.lean ====
/-
  A two-layer GraphSAGE network (mean aggregation, a rectifier between the layers, a logistic output) over 100000
  nodes and 640000 edges: the Pallas program against its jnp reference, over the extended reals.

  Both programs compute, for each layer, the neighbour mean of the features (rows gathered at the edge sources and
  scatter-added at the edge destinations, over `max(deg, 1)`), then `mean · W_l + feat · W_r + b` and the activation.
  They differ in three ways, none of which changes the value on the extended reals:
    * the kernel program multiplies the neighbour sum by `1 / max(deg, 1)` where the reference divides by
      `max(deg, 1)` — equal because the divisor is at least one, hence never zero (MeanLaw);
    * the kernel computes each layer 4000 rows at a time, its two products accumulated from zero on narrowed
      operands, where the reference forms whole products — the same sums row by row, and the 25 row blocks tile the
      array (PayHidden / PayOutput, ArrHidden / ArrOutput, RefLayers);
    * the kernel applies the logistic function where the reference spells `1 / (1 + e^(-z))` — the logistic function's
      definition.
  The gather and the scatter-add are the same functions of the same arguments in both programs and are never opened.
  No finiteness of the inputs is used: the precondition is not needed by any claim.

  The kernel program's run with its result named is KernelRun; what the result buffer then holds, as a term of the
  arguments, is KernelValue; the reference's run and its stages read at an index are generated.
-/
import proofs.«152443_j55009941127683_1_alg».proof.Defs
import proofs.«152443_j55009941127683_1_alg».proof.Proof.Gen.Kernel
import proofs.«152443_j55009941127683_1_alg».proof.Proof.Gen.Kernel.Frame
import proofs.«152443_j55009941127683_1_alg».proof.Proof.Gen.KernelIdeal
import proofs.«152443_j55009941127683_1_alg».proof.Proof.Gen.KernelIdeal.Frame
import proofs.«152443_j55009941127683_1_alg».proof.Proof.Gen.ReferenceIdeal
import proofs.«152443_j55009941127683_1_alg».proof.Proof.Gen.Pre_finite_inputs
import proofs.«152443_j55009941127683_1_alg».proof.Proof.Gen.ReferenceIdeal.Run
import proofs.«152443_j55009941127683_1_alg».proof.Proof.Gen.ReferenceIdeal.Read
import proofs.«152443_j55009941127683_1_alg».proof.Proof.KernelRun
import proofs.«152443_j55009941127683_1_alg».proof.Proof.KernelValue
import proofs.«152443_j55009941127683_1_alg».proof.Proof.RefLayers
import proofs.«152443_j55009941127683_1_alg».proof.Proof.MeanLaw
import Idealize.ShloMosaic.Adequacy
import Idealize.ShloMosaic.Init

noncomputable section

open Idealize.ShloMosaic Idealize.ShloMosaic.TcCoe Idealize.SL.Sem

/-! ## The two programs compute one function -/

namespace Cert.Sage

open Cert.ReferenceIdeal.Read Cert.Sage.KHost

/-- The kernel program's hidden features are the reference's: the means agree, and the layer is the same formula. -/
theorem hiddenK_eq (x : Vec Ideal Cert.KernelIdeal.S100000x128 .f32) (e : (⟨Cert.KernelIdeal.S2x640000, .i32⟩ : BufTy).Contents (Elt Ideal))
    (wl wr : Vec Ideal Cert.KernelIdeal.S128x256 .f32) (b : Vec Ideal Cert.KernelIdeal.S256 .f32) :
    hiddenK x e wl wr b = val_main_v29 (F := Ideal) x e wl wr b := by
  unfold hiddenK
  rw [Cert.Sage.Law.meanIn_eq]
  exact (Cert.Sage.Ref.hidden_eq x e wl wr b).symm

/-- The kernel program's class scores are the reference's result. -/
theorem scoresK_eq (x : Vec Ideal Cert.KernelIdeal.S100000x128 .f32) (e : (⟨Cert.KernelIdeal.S2x640000, .i32⟩ : BufTy).Contents (Elt Ideal))
    (wl wr : Vec Ideal Cert.KernelIdeal.S128x256 .f32) (b : Vec Ideal Cert.KernelIdeal.S256 .f32)
    (ul ur : Vec Ideal Cert.KernelIdeal.S256x100 .f32) (b' : Vec Ideal Cert.KernelIdeal.S100 .f32) :
    scoresK x e wl wr b ul ur b' = val_main_v64 (F := Ideal) x e wl wr b ul ur b' := by
  unfold scoresK
  rw [hiddenK_eq, Cert.Sage.Law.meanHid_eq]
  exact (Cert.Sage.Ref.scores_eq x e wl wr b ul ur b').symm

end Cert.Sage

/-! ## The claims -/

namespace Cert.Proof

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- From memories that agree on the arguments both programs end with the class scores `scoresK` of those arguments:
    the kernel program by its run read at the result buffer, the reference by its generated run, whose term is the
    same function. -/
theorem algebraic : Cert.algebraic_KernelIdeal_ReferenceIdeal := by
  intro m ρ m' ρ' _ hagree
  refine ⟨fun c => Cert.Sage.KHost.scoresK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Sage.KHost.result_value m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v64_eq, h0, h1, h2, h3, h4, h5, h6, h7]
    exact (Cert.Sage.scoresK_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
